-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S5000x128 : Shape := ⟨2, ![5000, 128]⟩
abbrev S1650000x128 : Shape := ⟨2, ![1650000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 92
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S1650000, .i32⟩
  | .hbm, ⟨55, _⟩ => ⟨S1650000, .i1⟩
  | .hbm, ⟨56, _⟩ => ⟨S_, .i32⟩
  | .hbm, ⟨57, _⟩ => ⟨S1650000, .i32⟩
  | .hbm, ⟨58, _⟩ => ⟨S1650000, .i32⟩
  | .hbm, ⟨59, _⟩ => ⟨S1650000, .i32⟩
  | .hbm, ⟨60, _⟩ => ⟨S1650000x1, .i32⟩
  | .hbm, ⟨61, _⟩ => ⟨S1650000x128, .f32⟩
  | .hbm, ⟨62, _⟩ => ⟨S1650000x1, .f32⟩
  | .hbm, ⟨63, _⟩ => ⟨S1650000x128, .f32⟩
  | .hbm, ⟨64, _⟩ => ⟨S1650000x128, .f32⟩
  | .hbm, ⟨65, _⟩ => ⟨S_, .f32⟩
  | .hbm, ⟨66, _⟩ => ⟨S50000x128, .f32⟩
  | .hbm, ⟨67, _⟩ => ⟨S1650000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x128, .f32⟩
  | .hbm, ⟨81, _⟩ => ⟨S1650000x1, .f32⟩
  | .hbm, ⟨82, _⟩ => ⟨S1650000x128, .f32⟩
  | .hbm, ⟨83, _⟩ => ⟨S1650000x128, .f32⟩
  | .hbm, ⟨84, _⟩ => ⟨S_, .f32⟩
  | .hbm, ⟨85, _⟩ => ⟨S50000x128, .f32⟩
  | .hbm, ⟨86, _⟩ => ⟨S1650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S1x64, .f32⟩
  | .hbm, ⟨91, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S1650000x128 : Shape := ⟨2, ![1650000, 128]⟩
abbrev S50000x64 : Shape := ⟨2, ![50000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S1650000, .i32⟩
  | .hbm, ⟨57, _⟩ => ⟨S1650000, .i1⟩
  | .hbm, ⟨58, _⟩ => ⟨S_, .i32⟩
  | .hbm, ⟨59, _⟩ => ⟨S1650000, .i32⟩
  | .hbm, ⟨60, _⟩ => ⟨S1650000, .i32⟩
  | .hbm, ⟨61, _⟩ => ⟨S1650000, .i32⟩
  | .hbm, ⟨62, _⟩ => ⟨S1650000x1, .i32⟩
  | .hbm, ⟨63, _⟩ => ⟨S1650000x128, .f32⟩
  | .hbm, ⟨64, _⟩ => ⟨S1650000x1, .f32⟩
  | .hbm, ⟨65, _⟩ => ⟨S1650000x128, .f32⟩
  | .hbm, ⟨66, _⟩ => ⟨S1650000x128, .f32⟩
  | .hbm, ⟨67, _⟩ => ⟨S_, .f32⟩
  | .hbm, ⟨68, _⟩ => ⟨S50000x128, .f32⟩
  | .hbm, ⟨69, _⟩ => ⟨S1650000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000x128, .f32⟩
  | .hbm, ⟨87, _⟩ => ⟨S1650000x1, .f32⟩
  | .hbm, ⟨88, _⟩ => ⟨S1650000x128, .f32⟩
  | .hbm, ⟨89, _⟩ => ⟨S1650000x128, .f32⟩
  | .hbm, ⟨90, _⟩ => ⟨S_, .f32⟩
  | .hbm, ⟨91, _⟩ => ⟨S50000x128, .f32⟩
  | .hbm, ⟨92, _⟩ => ⟨S1650000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.GcnSpec.lean ====
/-
  What the graph network computes, as whole-array functions over the extended reals.

  The network is  decode ∘ (bias+ReLU ∘ aggregate ∘ project) ∘ (bias+ReLU ∘ aggregate ∘ project) ∘ encode  on 50000 nodes:
    encode  X W b   row r, column q ↦ (∑ₖ X[r,k]·W[k,q]) + b[0,q]          (128 → 128 features)
    project X W     row r, column q ↦  ∑ₖ X[r,k]·W[k,q]                     (128 → 128)
    biasRelu S b    row r, column q ↦ max (S[r,q] + b[0,q]) 0
    decode  X W b   row r, column q ↦ (∑ₖ X[r,k]·W[k,q]) + b[0,q]          (128 → 64)
  and `aggregate` is the message passing over the edge list with self loops appended: gather the projected rows at the
  (wrapped) source nodes, scale each by its edge's symmetric normalisation, scatter-add into the destination nodes.
  The edge list's three derived arrays (sources, destinations, normalisation  d⁻¹ᐟ²[src]·d⁻¹ᐟ²[dst]  with d the in-degree
  counted with the self loop) depend on the integer input only; both programs compute them by the same host operations,
  so they are named here once and never opened.
-/
import proofs.«128300_j27951647163110_1_alg».proof.Proof.Gen.KernelIdeal
import Idealize.ShloMosaic.Lib.ValueIdx
import Idealize.ShloMosaic.PureOps.Ideal.Laws

noncomputable section

open scoped BigOperators
open Idealize.ShloMosaic Idealize.ShloMosaic.ValueIdx

namespace Cert.Gcn

open Cert.KernelIdeal Cert.KernelIdeal.Facts₀ Cert.KernelIdeal.Facts

/-! ## The dense stages, index by index -/

/-- One entry of a node-feature matrix times a 128-column weight matrix. -/
def dotAt (X : FVec Ideal S50000x128 .f32) (W : FVec Ideal S128x128 .f32) (r : Fin 50000) (q : Fin 128) : EReal :=
  ∑ k : Fin 128, X (ix2 r k) * W (ix2 k q)

/-- One entry of a node-feature matrix times the 64-column output weight matrix. -/
def dotAt64 (X : FVec Ideal S50000x128 .f32) (W : FVec Ideal S128x64 .f32) (r : Fin 50000) (q : Fin 64) : EReal :=
  ∑ k : Fin 128, X (ix2 r k) * W (ix2 k q)

/-- The encoder: `X·W + b`, the bias a one-row matrix added to every row. -/
def encode (X : FVec Ideal S50000x128 .f32) (W : FVec Ideal S128x128 .f32) (b : FVec Ideal S1x128 .f32) : FVec Ideal S50000x128 .f32 :=
  fun i => dotAt X W (i 0) (i 1) + b (ix2 (0 : Fin 1) (i 1))

/-- A layer's dense map: `X·W`. -/
def project (X : FVec Ideal S50000x128 .f32) (W : FVec Ideal S128x128 .f32) : FVec Ideal S50000x128 .f32 :=
  fun i => dotAt X W (i 0) (i 1)

/-- A layer's epilogue: add the bias row, clamp below at zero. -/
def biasRelu (S : FVec Ideal S50000x128 .f32) (b : FVec Ideal S1x128 .f32) : FVec Ideal S50000x128 .f32 :=
  fun i => FloatOps.maximumf (S i + b (ix2 (0 : Fin 1) (i 1))) (Scalar.ofBits (F := Ideal) .f32 0x00000000#32)

/-- The decoder: `X·W + b` into 64 classes. -/
def decode (X : FVec Ideal S50000x128 .f32) (W : FVec Ideal S128x64 .f32) (b : FVec Ideal S1x64 .f32) : FVec Ideal S50000x64 .f32 :=
  fun i => dotAt64 X W (i 0) (i 1) + b (ix2 (0 : Fin 1) (i 1))

/-! ## The edge list's derived arrays and the aggregation (host operations both programs share) -/

/-- A node-index array with negative entries wrapped by the node count (how a jnp gather reads its indices). -/
def wrapIdx (v : IVec S1650000 32) : IVec S1650000 32 :=
  select (cmpi .slt v (broadcastInDim S1650000 ![] bcast_S_S1650000 (constantI S_ 32 0#32)))
    (addi v (broadcastInDim S1650000 ![] bcast_S_S1650000 (constantI S_ 32 50000#32))) v

/-- Message passing: gather the rows of `H` at the wrapped sources, scale row `e` by `nrm e`, add into the destinations. -/
def aggregate (H : FVec Ideal S50000x128 .f32) (src dst : IVec S1650000 32) (nrm : FVec Ideal S1650000 .f32) : FVec Ideal S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (mulf (Host.gather gather_S50000x128_S1650000x1_S1650000x128_1_0_n_n_0_1_1128 H
        (broadcastInDim S1650000x1 ![0] bcast_S1650000_S1650000x1_0 (wrapIdx src)))
      (broadcastInDim S1650000x128 ![0, 1] bcast_S1650000x1_S1650000x128_0_1
        (broadcastInDim S1650000x1 ![0] bcast_S1650000_S1650000x1_0 nrm)))

/-! ## The edge list's derived arrays, and the biases as one-row matrices -/

section Edges
variable {F : FTy → Type} [FloatOps F]

/-- The source node of every edge: row 0 of the edge list, then one self loop per node. -/
def srcOf (ei : IVec S2x1600000 32) : IVec S1650000 32 :=
  concatenate S1650000 0 [⟨S1600000, shapeCast S1600000 (extractStridedSlice S1x1600000 ![0, 0] ei slices_S2x1600000_S1x1600000_0_0) shapeCasts_S1x1600000_S1600000⟩, ⟨S50000, iotaInDim S50000 32 0⟩] concatenates_S1600000_S50000_S1650000_d0

/-- The destination node of every edge: row 1 of the edge list, then one self loop per node. -/
def dstOf (ei : IVec S2x1600000 32) : IVec S1650000 32 :=
  concatenate S1650000 0 [⟨S1600000, shapeCast S1600000 (extractStridedSlice S1x1600000 ![1, 0] ei slices_S2x1600000_S1x1600000_1_0) shapeCasts_S1x1600000_S1600000⟩, ⟨S50000, iotaInDim S50000 32 0⟩] concatenates_S1600000_S50000_S1650000_d0

/-- Every node's in-degree, the self loop counted: ones added at the destinations. -/
def degOf (ei : IVec S2x1600000 32) : FVec F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 (dstOf ei))
    (broadcastInDim S1650000 ![] bcast_S_S1650000 (constant S_ .f32 0x3F800000#32))

/-- `d⁻¹ᐟ²` where the degree is positive, zero elsewhere. -/
def dinvOf (ei : IVec S2x1600000 32) : FVec F S50000 .f32 :=
  select (cmpf (F := F) .ogt (degOf ei) (broadcastInDim S50000 ![] bcast_S_S50000 (constant S_ .f32 0x00000000#32)))
    (Host.rsqrt (degOf ei))
    (broadcastInDim S50000 ![] bcast_S_S50000 (constant S_ .f32 0x00000000#32))

/-- Every edge's symmetric normalisation `d⁻¹ᐟ²[src] · d⁻¹ᐟ²[dst]`. -/
def normOf (ei : IVec S2x1600000 32) : FVec F S1650000 .f32 :=
  mulf (Host.gather gather_S50000_S1650000x1_S1650000_n_0_n_n_0_1_1 (dinvOf (F := F) ei)
      (broadcastInDim S1650000x1 ![0] bcast_S1650000_S1650000x1_0 (wrapIdx (srcOf ei))))
    (Host.gather gather_S50000_S1650000x1_S1650000_n_0_n_n_0_1_1 (dinvOf (F := F) ei)
      (broadcastInDim S1650000x1 ![0] bcast_S1650000_S1650000x1_0 (wrapIdx (dstOf ei))))

/-- A 128-entry bias as a one-row matrix. -/
def row128 (b : FVec F S128 .f32) : FVec F S1x128 .f32 := shapeCast S1x128 b shapeCasts_S128_S1x128

/-- The 64-entry output bias as a one-row matrix. -/
def row64 (b : FVec F S64 .f32) : FVec F S1x64 .f32 := shapeCast S1x64 b shapeCasts_S64_S1x64

end Edges

/-! ## The network -/

/-- The whole forward pass from the node features, the edge list's derived arrays and the parameters (each bias
    already laid out as a one-row matrix). -/
def net (x : FVec Ideal S50000x128 .f32) (src dst : IVec S1650000 32) (nrm : FVec Ideal S1650000 .f32)
    (We : FVec Ideal S128x128 .f32) (be : FVec Ideal S1x128 .f32) (W1 : FVec Ideal S128x128 .f32) (b1 : FVec Ideal S1x128 .f32)
    (W2 : FVec Ideal S128x128 .f32) (b2 : FVec Ideal S1x128 .f32) (Wo : FVec Ideal S128x64 .f32) (bo : FVec Ideal S1x64 .f32) :
    FVec Ideal S50000x64 .f32 :=
  decode (biasRelu (aggregate (project (biasRelu (aggregate (project (encode x We be) W1) src dst nrm) b1) W2) src dst nrm) b2) Wo bo

/-- The forward pass as a function of the ten inputs. -/
def forward (x : FVec Ideal S50000x128 .f32) (ei : IVec S2x1600000 32)
    (We : FVec Ideal S128x128 .f32) (be : FVec Ideal S128 .f32) (W1 : FVec Ideal S128x128 .f32) (b1 : FVec Ideal S128 .f32)
    (W2 : FVec Ideal S128x128 .f32) (b2 : FVec Ideal S128 .f32) (Wo : FVec Ideal S128x64 .f32) (bo : FVec Ideal S64 .f32) :
    FVec Ideal S50000x64 .f32 :=
  net x (srcOf ei) (dstOf ei) (normOf (F := Ideal) ei) We (row128 be) W1 (row128 b1) W2 (row128 b2) Wo (row64 bo)

end Cert.Gcn

end
-- ==== Proof.RegionEncode.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionEncode

open Cert.KernelIdeal Cert.KernelIdeal.Gen

theorem hz : (![0, 0] : Fin 2 → Nat) = fun _ => 0 := funext fun a => by fin_cases a <;> rfl

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with the weight matrix, entry by entry: row `p` of the block against column `q` of the weights. -/
theorem matmul_at (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) := by
  show FloatOps.matmul dot_S5000x128_S128x128_S5000x128_1_0_0_1_n_n none x0 x1 (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at an entry of the block: the product's entry plus its column's bias. -/
theorem pay_at (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  simp only [shapeCast_self]
  show FloatOps.addf (F := Ideal) (φ := FTy.f32) (matmul (F := Ideal) dot_S5000x128_S128x128_S5000x128_1_0_0_1_n_n none _ _ (constant S5000x128 .f32 0x00000000#32) (ix2 p q)) (broadcastTo S5000x128 x2 _ (ix2 p q)) = _
  rw [matmul_at, broadcastTo_1b_ab_apply]
  rfl

variable (V : (c : Dev nD) → (b : Ref sig .tc) → Buf (Elt Ideal) ((c : Thread nD τ).loc b))

/-- Where the four windows sit at grid point `t`: the node rows' windows on row block `t`, the weights' and the bias's on the whole of theirs. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block's stored value is the whole affine map read at the block's rows. -/
theorem block_eq (A : FVec Ideal S50000x128 .f32) (B : FVec Ideal S128x128 .f32) (b : FVec Ideal S1x128 .f32)
    (x0 : Vec Ideal S5000x128 .f32) (x1 : Vec Ideal S128x128 .f32) (x2 : Vec Ideal S1x128 .f32) (n : Nat)
    (h0 : ∀ (p : Fin 5000) (k : Fin 128) (r : Fin 50000), r.val = n * 5000 + p.val → x0 (ix2 p k) = A (ix2 r k))
    (h1 : ∀ (k : Fin 128) (q : Fin 128), x1 (ix2 k q) = B (ix2 k q))
    (h2 : ∀ (q : Fin 128), x2 (ix2 (0 : Fin 1) q) = b (ix2 (0 : Fin 1) q))
    (j : S5000x128.Idx) (i : S50000x128.Idx) (hi0 : (i 0).val = n * 5000 + (j 0).val) (hi1 : (i 1).val = (j 1).val) :
    k0_pay1 (F := Ideal) x0 x1 x2 j = Cert.Gcn.encode A B b i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay_at, h2]
  show _ = Cert.Gcn.dotAt A B r s + b (ix2 (0 : Fin 1) s)
  unfold Cert.Gcn.dotAt
  exact congrArg (· + b (ix2 (0 : Fin 1) s)) (Finset.sum_congr rfl fun k _ => by rw [h0 p k r hi0, h1])

/-- What grid point `t` writes back is block `t` of the affine map of the arrays the region found. -/
theorem flushed_eq (c : Dev nD) (t : Fin cfg0.N) :
    (dat0 V c).flushed 3 t = ((cfg0.win 3).blk t).view.read (Elt Ideal) (Cert.Gcn.encode (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  show k0_pay1 (F := Ideal) (iblk0 V c 0 t) (iblk0 V c 1 t) (iblk0 V c 2 t) j
    = Cert.Gcn.encode (V c main_arg0) (V c main_arg2) (V c main_v30) (((cfg0.win 3).blk t).view.emb j)
  refine block_eq (V c main_arg0) (V c main_arg2) (V c main_v30) (iblk0 V c 0 t) (iblk0 V c 1 t) (iblk0 V c 2 t) t.val ?_ ?_ ?_ j (((cfg0.win 3).blk t).view.emb j) ?_ ?_
  · intro p k r hr
    unfold iblk0
    rw [View.read_apply]
    show V c main_arg0 _ = V c main_arg0 _
    refine congrArg _ (funext fun a => Fin.ext ?_)
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  · intro k q
    unfold iblk0
    rw [View.read_apply]
    show V c main_arg2 _ = V c main_arg2 _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · intro q
    unfold iblk0
    rw [View.read_apply]
    show V c main_v30 _ = V c main_v30 _
    refine congrArg _ (funext fun a => Fin.ext ?_)
    match a with
    | ⟨0, _⟩ => show win0_2.index t (0 : Fin 2) * 1 + 1 * 0 = 0; rw [e4]
    | ⟨1, _⟩ => show win0_2.index t (1 : Fin 2) * 128 + 1 * q.val = q.val; rw [e5]; omega
  · show win0_3.index t (0 : Fin 2) * 5000 + 1 * (j 0).val = t.val * 5000 + (j 0).val; rw [e6]; omega
  · show win0_3.index t (1 : Fin 2) * 128 + 1 * (j 1).val = (j 1).val; rw [e7]; omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- The ten row blocks cover the array: row `r` is in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- After the region its output array holds the affine map of the three arrays it found. -/
theorem final (c : Dev nD) : (dat0 (F := Ideal) V c).arrAt 3 cfg0.N = Cert.Gcn.encode (V c main_arg0) (V c main_arg2) (V c main_v30) :=
  (dat0 V c).arrAt_eq_of_cover 3 _ (fun t _ => flushed_eq V c t) (cover)

end Cert.KernelIdeal.RegionEncode

end
-- ==== Proof.RegionProject.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionProject

open Cert.KernelIdeal Cert.KernelIdeal.Gen

theorem hz : (![0, 0] : Fin 2 → Nat) = fun _ => 0 := funext fun a => by fin_cases a <;> rfl

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with the weight matrix, entry by entry: row `p` of the block against column `q` of the weights. -/
theorem matmul_at (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) := by
  show FloatOps.matmul dot_S5000x128_S128x128_S5000x128_1_0_0_1_n_n none x0 x1 (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at an entry of the block. -/
theorem pay_at (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [shapeCast_self]
  exact matmul_at _ _ p q

variable (V : (c : Dev nD) → (b : Ref sig .tc) → Buf (Elt Ideal) ((c : Thread nD τ).loc b))

/-- Where the three windows sit at grid point `t`: the node rows' windows on row block `t`, the weights' window on the whole matrix. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One block's stored value is the whole product read at the block's rows: if the block `x0` holds rows
    `5000 n … 5000 n + 4999` of `A` and `x1` is `B`, the stored entry `j` is entry `i` of `A·B` for the
    array index `i` that `j` names. -/
theorem block_eq (A : FVec Ideal S50000x128 .f32) (B : FVec Ideal S128x128 .f32)
    (x0 : Vec Ideal S5000x128 .f32) (x1 : Vec Ideal S128x128 .f32) (n : Nat)
    (h0 : ∀ (p : Fin 5000) (k : Fin 128) (r : Fin 50000), r.val = n * 5000 + p.val → x0 (ix2 p k) = A (ix2 r k))
    (h1 : ∀ (k q : Fin 128), x1 (ix2 k q) = B (ix2 k q))
    (j : S5000x128.Idx) (i : S50000x128.Idx) (hi0 : (i 0).val = n * 5000 + (j 0).val) (hi1 : (i 1).val = (j 1).val) :
    k1_pay1 (F := Ideal) x0 x1 j = Cert.Gcn.project A B i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay_at]
  show _ = Cert.Gcn.dotAt A B r s
  unfold Cert.Gcn.dotAt
  exact Finset.sum_congr rfl fun k _ => by rw [h0 p k r hi0, h1]

/-- What grid point `t` writes back is block `t` of the whole product of the arrays the region found. -/
theorem flushed_eq (c : Dev nD) (t : Fin cfg1.N) :
    (dat1 V c).flushed 2 t = ((cfg1.win 2).blk t).view.read (Elt Ideal) (Cert.Gcn.project (V c main_v31) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (F := Ideal) (iblk1 V c 0 t) (iblk1 V c 1 t) j
    = Cert.Gcn.project (V c main_v31) (V c main_arg4) (((cfg1.win 2).blk t).view.emb j)
  refine block_eq (V c main_v31) (V c main_arg4) (iblk1 V c 0 t) (iblk1 V c 1 t) t.val ?_ ?_ j (((cfg1.win 2).blk t).view.emb j) ?_ ?_
  · intro p k r hr
    unfold iblk1
    rw [View.read_apply]
    show V c main_v31 _ = V c main_v31 _
    refine congrArg _ (funext fun a => Fin.ext ?_)
    match a with
    | ⟨0, _⟩ => show win1_0.index t (0 : Fin 2) * 5000 + 1 * p.val = r.val; rw [e0, hr]; omega
    | ⟨1, _⟩ => show win1_0.index t (1 : Fin 2) * 128 + 1 * k.val = k.val; rw [e1]; omega
  · intro k q
    unfold iblk1
    rw [View.read_apply]
    show V c main_arg4 _ = V c main_arg4 _
    refine congrArg _ (funext fun a => Fin.ext ?_)
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  · show win1_2.index t (0 : Fin 2) * 5000 + 1 * (j 0).val = t.val * 5000 + (j 0).val; rw [e4]; omega
  · show win1_2.index t (1 : Fin 2) * 128 + 1 * (j 1).val = (j 1).val; rw [e5]; omega

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- The ten row blocks cover the array: row `r` is in block `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- After the region its output array holds the whole product of the two arrays it found. -/
theorem final (c : Dev nD) : (dat1 (F := Ideal) V c).arrAt 2 cfg1.N = Cert.Gcn.project (V c main_v31) (V c main_arg4) :=
  (dat1 V c).arrAt_eq_of_cover 2 _ (fun t _ => flushed_eq V c t) (cover)

end Cert.KernelIdeal.RegionProject

end
-- ==== Proof.RegionBiasRelu.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionBiasRelu

open Cert.KernelIdeal Cert.KernelIdeal.Gen

theorem hz : (![0, 0] : Fin 2 → Nat) = fun _ => 0 := funext fun a => by fin_cases a <;> rfl

/-- The body's stored value at an entry of the block: the entry plus its column's bias, clamped below at zero. -/
theorem pay_at (x0 : Vec Ideal S5000x128 .f32) (x1 : Vec Ideal S1x128 .f32) (p : Fin 5000) (q : Fin 128) :
    k2_pay1 (F := Ideal) x0 x1 (ix2 p q)
      = FloatOps.maximumf (x0 (ix2 p q) + x1 (ix2 (0 : Fin 1) q)) (Scalar.ofBits (F := Ideal) .f32 0x00000000#32) := by
  unfold k2_pay1
  simp only [shapeCast_self]
  show FloatOps.maximumf (F := Ideal) (φ := FTy.f32) (FloatOps.addf (F := Ideal) (φ := FTy.f32) (x0 (ix2 p q)) (broadcastTo S5000x128 x1 _ (ix2 p q))) _ = _
  rw [broadcastTo_1b_ab_apply]
  rfl

variable (V : (c : Dev nD) → (b : Ref sig .tc) → Buf (Elt Ideal) ((c : Thread nD τ).loc b))

/-- Where the three windows sit at grid point `t`: the node rows' windows on row block `t`, the bias's window on its one row. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One block's stored value is the whole epilogue read at the block's rows. -/
theorem block_eq (S : FVec Ideal S50000x128 .f32) (b : FVec Ideal S1x128 .f32)
    (x0 : Vec Ideal S5000x128 .f32) (x1 : Vec Ideal S1x128 .f32) (n : Nat)
    (h0 : ∀ (p : Fin 5000) (q : Fin 128) (r : Fin 50000), r.val = n * 5000 + p.val → x0 (ix2 p q) = S (ix2 r q))
    (h1 : ∀ (q : Fin 128), x1 (ix2 (0 : Fin 1) q) = b (ix2 (0 : Fin 1) q))
    (j : S5000x128.Idx) (i : S50000x128.Idx) (hi0 : (i 0).val = n * 5000 + (j 0).val) (hi1 : (i 1).val = (j 1).val) :
    k2_pay1 (F := Ideal) x0 x1 j = Cert.Gcn.biasRelu S b i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay_at, h0 p s r hi0, h1]
  rfl

/-- What grid point `t` writes back is block `t` of the epilogue of the arrays the region found. -/
theorem flushed_eq (c : Dev nD) (t : Fin cfg2.N) :
    (dat2 V c).flushed 2 t = ((cfg2.win 2).blk t).view.read (Elt Ideal) (Cert.Gcn.biasRelu (V c main_v45) (V c main_v46)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts t
  funext j
  show k2_pay1 (F := Ideal) (iblk2 V c 0 t) (iblk2 V c 1 t) j
    = Cert.Gcn.biasRelu (V c main_v45) (V c main_v46) (((cfg2.win 2).blk t).view.emb j)
  refine block_eq (V c main_v45) (V c main_v46) (iblk2 V c 0 t) (iblk2 V c 1 t) t.val ?_ ?_ j (((cfg2.win 2).blk t).view.emb j) ?_ ?_
  · intro p q r hr
    unfold iblk2
    rw [View.read_apply]
    show V c main_v45 _ = V c main_v45 _
    refine congrArg _ (funext fun a => Fin.ext ?_)
    match a with
    | ⟨0, _⟩ => show win2_0.index t (0 : Fin 2) * 5000 + 1 * p.val = r.val; rw [e0, hr]; omega
    | ⟨1, _⟩ => show win2_0.index t (1 : Fin 2) * 128 + 1 * q.val = q.val; rw [e1]; omega
  · intro q
    unfold iblk2
    rw [View.read_apply]
    show V c main_v46 _ = V c main_v46 _
    refine congrArg _ (funext fun a => Fin.ext ?_)
    match a with
    | ⟨0, _⟩ => show win2_1.index t (0 : Fin 2) * 1 + 1 * 0 = 0; rw [e2]
    | ⟨1, _⟩ => show win2_1.index t (1 : Fin 2) * 128 + 1 * q.val = q.val; rw [e3]; omega
  · show win2_2.index t (0 : Fin 2) * 5000 + 1 * (j 0).val = t.val * 5000 + (j 0).val; rw [e4]; omega
  · show win2_2.index t (1 : Fin 2) * 128 + 1 * (j 1).val = (j 1).val; rw [e5]; omega

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The ten row blocks cover the array: row `r` is in block `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [show cfg2.N = 10 from N_2]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- After the region its output array holds the epilogue of the two arrays it found. -/
theorem final (c : Dev nD) : (dat2 (F := Ideal) V c).arrAt 2 cfg2.N = Cert.Gcn.biasRelu (V c main_v45) (V c main_v46) :=
  (dat2 V c).arrAt_eq_of_cover 2 _ (fun t _ => flushed_eq V c t) (cover)

end Cert.KernelIdeal.RegionBiasRelu

end
-- ==== Proof.RegionProjectB.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionProjectB

open Cert.KernelIdeal Cert.KernelIdeal.Gen

theorem hz : (![0, 0] : Fin 2 → Nat) = fun _ => 0 := funext fun a => by fin_cases a <;> rfl

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with the weight matrix, entry by entry: row `p` of the block against column `q` of the weights. -/
theorem matmul_at (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) := by
  show FloatOps.matmul dot_S5000x128_S128x128_S5000x128_1_0_0_1_n_n none x0 x1 (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at an entry of the block. -/
theorem pay_at (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  simp only [shapeCast_self]
  exact matmul_at _ _ p q

variable (V : (c : Dev nD) → (b : Ref sig .tc) → Buf (Elt Ideal) ((c : Thread nD τ).loc b))

/-- Where the three windows sit at grid point `t`: the node rows' windows on row block `t`, the weights' window on the whole matrix. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One block's stored value is the whole product read at the block's rows: if the block `x0` holds rows
    `5000 n … 5000 n + 4999` of `A` and `x1` is `B`, the stored entry `j` is entry `i` of `A·B` for the
    array index `i` that `j` names. -/
theorem block_eq (A : FVec Ideal S50000x128 .f32) (B : FVec Ideal S128x128 .f32)
    (x0 : Vec Ideal S5000x128 .f32) (x1 : Vec Ideal S128x128 .f32) (n : Nat)
    (h0 : ∀ (p : Fin 5000) (k : Fin 128) (r : Fin 50000), r.val = n * 5000 + p.val → x0 (ix2 p k) = A (ix2 r k))
    (h1 : ∀ (k q : Fin 128), x1 (ix2 k q) = B (ix2 k q))
    (j : S5000x128.Idx) (i : S50000x128.Idx) (hi0 : (i 0).val = n * 5000 + (j 0).val) (hi1 : (i 1).val = (j 1).val) :
    k3_pay1 (F := Ideal) x0 x1 j = Cert.Gcn.project A B i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay_at]
  show _ = Cert.Gcn.dotAt A B r s
  unfold Cert.Gcn.dotAt
  exact Finset.sum_congr rfl fun k _ => by rw [h0 p k r hi0, h1]

/-- What grid point `t` writes back is block `t` of the whole product of the arrays the region found. -/
theorem flushed_eq (c : Dev nD) (t : Fin cfg3.N) :
    (dat3 V c).flushed 2 t = ((cfg3.win 2).blk t).view.read (Elt Ideal) (Cert.Gcn.project (V c main_v47) (V c main_arg6)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  show k3_pay1 (F := Ideal) (iblk3 V c 0 t) (iblk3 V c 1 t) j
    = Cert.Gcn.project (V c main_v47) (V c main_arg6) (((cfg3.win 2).blk t).view.emb j)
  refine block_eq (V c main_v47) (V c main_arg6) (iblk3 V c 0 t) (iblk3 V c 1 t) t.val ?_ ?_ j (((cfg3.win 2).blk t).view.emb j) ?_ ?_
  · intro p k r hr
    unfold iblk3
    rw [View.read_apply]
    show V c main_v47 _ = V c main_v47 _
    refine congrArg _ (funext fun a => Fin.ext ?_)
    match a with
    | ⟨0, _⟩ => show win3_0.index t (0 : Fin 2) * 5000 + 1 * p.val = r.val; rw [e0, hr]; omega
    | ⟨1, _⟩ => show win3_0.index t (1 : Fin 2) * 128 + 1 * k.val = k.val; rw [e1]; omega
  · intro k q
    unfold iblk3
    rw [View.read_apply]
    show V c main_arg6 _ = V c main_arg6 _
    refine congrArg _ (funext fun a => Fin.ext ?_)
    match a with
    | ⟨0, _⟩ => show win3_1.index t (0 : Fin 2) * 128 + 1 * k.val = k.val; rw [e2]; omega
    | ⟨1, _⟩ => show win3_1.index t (1 : Fin 2) * 128 + 1 * q.val = q.val; rw [e3]; omega
  · show win3_2.index t (0 : Fin 2) * 5000 + 1 * (j 0).val = t.val * 5000 + (j 0).val; rw [e4]; omega
  · show win3_2.index t (1 : Fin 2) * 128 + 1 * (j 1).val = (j 1).val; rw [e5]; omega

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v48).slice (win3_2.rect t)).set ↔ _
  rw [View.set_slice_whole, Rect.mem_set_unit]
  exact Iff.rfl

/-- The ten row blocks cover the array: row `r` is in block `r / 5000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- After the region its output array holds the whole product of the two arrays it found. -/
theorem final (c : Dev nD) : (dat3 (F := Ideal) V c).arrAt 2 cfg3.N = Cert.Gcn.project (V c main_v47) (V c main_arg6) :=
  (dat3 V c).arrAt_eq_of_cover 2 _ (fun t _ => flushed_eq V c t) (cover)

end Cert.KernelIdeal.RegionProjectB

end
-- ==== Proof.RegionBiasReluB.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionBiasReluB

open Cert.KernelIdeal Cert.KernelIdeal.Gen

theorem hz : (![0, 0] : Fin 2 → Nat) = fun _ => 0 := funext fun a => by fin_cases a <;> rfl

/-- The body's stored value at an entry of the block: the entry plus its column's bias, clamped below at zero. -/
theorem pay_at (x0 : Vec Ideal S5000x128 .f32) (x1 : Vec Ideal S1x128 .f32) (p : Fin 5000) (q : Fin 128) :
    k4_pay1 (F := Ideal) x0 x1 (ix2 p q)
      = FloatOps.maximumf (x0 (ix2 p q) + x1 (ix2 (0 : Fin 1) q)) (Scalar.ofBits (F := Ideal) .f32 0x00000000#32) := by
  unfold k4_pay1
  simp only [shapeCast_self]
  show FloatOps.maximumf (F := Ideal) (φ := FTy.f32) (FloatOps.addf (F := Ideal) (φ := FTy.f32) (x0 (ix2 p q)) (broadcastTo S5000x128 x1 _ (ix2 p q))) _ = _
  rw [broadcastTo_1b_ab_apply]
  rfl

variable (V : (c : Dev nD) → (b : Ref sig .tc) → Buf (Elt Ideal) ((c : Thread nD τ).loc b))

/-- Where the three windows sit at grid point `t`: the node rows' windows on row block `t`, the bias's window on its one row. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One block's stored value is the whole epilogue read at the block's rows. -/
theorem block_eq (S : FVec Ideal S50000x128 .f32) (b : FVec Ideal S1x128 .f32)
    (x0 : Vec Ideal S5000x128 .f32) (x1 : Vec Ideal S1x128 .f32) (n : Nat)
    (h0 : ∀ (p : Fin 5000) (q : Fin 128) (r : Fin 50000), r.val = n * 5000 + p.val → x0 (ix2 p q) = S (ix2 r q))
    (h1 : ∀ (q : Fin 128), x1 (ix2 (0 : Fin 1) q) = b (ix2 (0 : Fin 1) q))
    (j : S5000x128.Idx) (i : S50000x128.Idx) (hi0 : (i 0).val = n * 5000 + (j 0).val) (hi1 : (i 1).val = (j 1).val) :
    k4_pay1 (F := Ideal) x0 x1 j = Cert.Gcn.biasRelu S b i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay_at, h0 p s r hi0, h1]
  rfl

/-- What grid point `t` writes back is block `t` of the epilogue of the arrays the region found. -/
theorem flushed_eq (c : Dev nD) (t : Fin cfg4.N) :
    (dat4 V c).flushed 2 t = ((cfg4.win 2).blk t).view.read (Elt Ideal) (Cert.Gcn.biasRelu (V c main_v61) (V c main_v62)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  obtain ⟨e0, e1, e2, e3, e4, e5⟩ := idx_facts t
  funext j
  show k4_pay1 (F := Ideal) (iblk4 V c 0 t) (iblk4 V c 1 t) j
    = Cert.Gcn.biasRelu (V c main_v61) (V c main_v62) (((cfg4.win 2).blk t).view.emb j)
  refine block_eq (V c main_v61) (V c main_v62) (iblk4 V c 0 t) (iblk4 V c 1 t) t.val ?_ ?_ j (((cfg4.win 2).blk t).view.emb j) ?_ ?_
  · intro p q r hr
    unfold iblk4
    rw [View.read_apply]
    show V c main_v61 _ = V c main_v61 _
    refine congrArg _ (funext fun a => Fin.ext ?_)
    match a with
    | ⟨0, _⟩ => show win4_0.index t (0 : Fin 2) * 5000 + 1 * p.val = r.val; rw [e0, hr]; omega
    | ⟨1, _⟩ => show win4_0.index t (1 : Fin 2) * 128 + 1 * q.val = q.val; rw [e1]; omega
  · intro q
    unfold iblk4
    rw [View.read_apply]
    show V c main_v62 _ = V c main_v62 _
    refine congrArg _ (funext fun a => Fin.ext ?_)
    match a with
    | ⟨0, _⟩ => show win4_1.index t (0 : Fin 2) * 1 + 1 * 0 = 0; rw [e2]
    | ⟨1, _⟩ => show win4_1.index t (1 : Fin 2) * 128 + 1 * q.val = q.val; rw [e3]; omega
  · show win4_2.index t (0 : Fin 2) * 5000 + 1 * (j 0).val = t.val * 5000 + (j 0).val; rw [e4]; omega
  · show win4_2.index t (1 : Fin 2) * 128 + 1 * (j 1).val = (j 1).val; rw [e5]; omega

/-- An index of the array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v63).slice (win4_2.rect t)).set ↔ _
  rw [View.set_slice_whole, Rect.mem_set_unit]
  exact Iff.rfl

/-- The ten row blocks cover the array: row `r` is in block `r / 5000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 5000 := ⟨⟨(i 0).val / 5000, by rw [show cfg4.N = 10 from N_4]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 128 ≤ (i 1).val ∧ (i 1).val < win4_2.index t (1 : Fin 2) * 128 + 128; rw [e5]; omega

/-- After the region its output array holds the epilogue of the two arrays it found. -/
theorem final (c : Dev nD) : (dat4 (F := Ideal) V c).arrAt 2 cfg4.N = Cert.Gcn.biasRelu (V c main_v61) (V c main_v62) :=
  (dat4 V c).arrAt_eq_of_cover 2 _ (fun t _ => flushed_eq V c t) (cover)

end Cert.KernelIdeal.RegionBiasReluB

end
-- ==== Proof.RegionDecode.lean ====
import proofs.«128300_j27951647163110_1_alg».proof.Proof.Gen.KernelIdeal.Frame
import proofs.«128300_j27951647163110_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionDecode

open Cert.KernelIdeal Cert.KernelIdeal.Gen

theorem hz : (![0, 0] : Fin 2 → Nat) = fun _ => 0 := funext fun a => by fin_cases a <;> rfl

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block's product with the weight matrix, entry by entry: row `p` of the block against column `q` of the weights. -/
theorem matmul_at (x0 : FVec Ideal S5000x128 .bf16) (x1 : FVec Ideal S128x64 .bf16) (p : Fin 5000) (q : Fin 64) :
    matmul dot_S5000x128_S128x64_S5000x64_1_0_0_1_n_n none x0 x1 (constant S5000x64 .f32 0x00000000#32) (ix2 p q)
      = ∑ k : Fin 128, x0 (ix2 p k) * x1 (ix2 k q) := by
  show FloatOps.matmul dot_S5000x128_S128x64_S5000x64_1_0_0_1_n_n none x0 x1 (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at an entry of the block: the product's entry plus its column's bias. -/
theorem pay_at (x0 : Vec Ideal S5000x128 .f32) (x1 : Vec Ideal S128x64 .f32) (x2 : Vec Ideal S1x64 .f32) (p : Fin 5000) (q : Fin 64) :
    k5_pay1 (F := Ideal) x0 x1 x2 (ix2 p q) = (∑ k : Fin 128, x0 (ix2 p k) * x1 (ix2 k q)) + x2 (ix2 (0 : Fin 1) q) := by
  unfold k5_pay1
  simp only [shapeCast_self]
  show FloatOps.addf (F := Ideal) (φ := FTy.f32) (matmul (F := Ideal) dot_S5000x128_S128x64_S5000x64_1_0_0_1_n_n none _ _ (constant S5000x64 .f32 0x00000000#32) (ix2 p q)) (broadcastTo S5000x64 x2 _ (ix2 p q)) = _
  rw [matmul_at, broadcastTo_1b_ab_apply]
  rfl

variable (V : (c : Dev nD) → (b : Ref sig .tc) → Buf (Elt Ideal) ((c : Thread nD τ).loc b))

/-- Where the four windows sit at grid point `t`: the node rows' windows on row block `t`, the weights' and the bias's on the whole of theirs. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One block's stored value is the whole affine map read at the block's rows. -/
theorem block_eq (A : FVec Ideal S50000x128 .f32) (B : FVec Ideal S128x64 .f32) (b : FVec Ideal S1x64 .f32)
    (x0 : Vec Ideal S5000x128 .f32) (x1 : Vec Ideal S128x64 .f32) (x2 : Vec Ideal S1x64 .f32) (n : Nat)
    (h0 : ∀ (p : Fin 5000) (k : Fin 128) (r : Fin 50000), r.val = n * 5000 + p.val → x0 (ix2 p k) = A (ix2 r k))
    (h1 : ∀ (k : Fin 128) (q : Fin 64), x1 (ix2 k q) = B (ix2 k q))
    (h2 : ∀ (q : Fin 64), x2 (ix2 (0 : Fin 1) q) = b (ix2 (0 : Fin 1) q))
    (j : S5000x64.Idx) (i : S50000x64.Idx) (hi0 : (i 0).val = n * 5000 + (j 0).val) (hi1 : (i 1).val = (j 1).val) :
    k5_pay1 (F := Ideal) x0 x1 x2 j = Cert.Gcn.decode A B b i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi1
  rw [pay_at, h2]
  show _ = Cert.Gcn.dotAt64 A B r s + b (ix2 (0 : Fin 1) s)
  unfold Cert.Gcn.dotAt64
  exact congrArg (· + b (ix2 (0 : Fin 1) s)) (Finset.sum_congr rfl fun k _ => by rw [h0 p k r hi0, h1])

/-- What grid point `t` writes back is block `t` of the affine map of the arrays the region found. -/
theorem flushed_eq (c : Dev nD) (t : Fin cfg5.N) :
    (dat5 V c).flushed 3 t = ((cfg5.win 3).blk t).view.read (Elt Ideal) (Cert.Gcn.decode (V c main_v63) (V c main_arg8) (V c main_v64)) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  show k5_pay1 (F := Ideal) (iblk5 V c 0 t) (iblk5 V c 1 t) (iblk5 V c 2 t) j
    = Cert.Gcn.decode (V c main_v63) (V c main_arg8) (V c main_v64) (((cfg5.win 3).blk t).view.emb j)
  refine block_eq (V c main_v63) (V c main_arg8) (V c main_v64) (iblk5 V c 0 t) (iblk5 V c 1 t) (iblk5 V c 2 t) t.val ?_ ?_ ?_ j (((cfg5.win 3).blk t).view.emb j) ?_ ?_
  · intro p k r hr
    unfold iblk5
    rw [View.read_apply]
    show V c main_v63 _ = V c main_v63 _
    refine congrArg _ (funext fun a => Fin.ext ?_)
    match a with
    | ⟨0, _⟩ => show win5_0.index t (0 : Fin 2) * 5000 + 1 * p.val = r.val; rw [e0, hr]; omega
    | ⟨1, _⟩ => show win5_0.index t (1 : Fin 2) * 128 + 1 * k.val = k.val; rw [e1]; omega
  · intro k q
    unfold iblk5
    rw [View.read_apply]
    show V c main_arg8 _ = V c main_arg8 _
    refine congrArg _ (funext fun a => Fin.ext ?_)
    match a with
    | ⟨0, _⟩ => show win5_1.index t (0 : Fin 2) * 128 + 1 * k.val = k.val; rw [e2]; omega
    | ⟨1, _⟩ => show win5_1.index t (1 : Fin 2) * 64 + 1 * q.val = q.val; rw [e3]; omega
  · intro q
    unfold iblk5
    rw [View.read_apply]
    show V c main_v64 _ = V c main_v64 _
    refine congrArg _ (funext fun a => Fin.ext ?_)
    match a with
    | ⟨0, _⟩ => show win5_2.index t (0 : Fin 2) * 1 + 1 * 0 = 0; rw [e4]
    | ⟨1, _⟩ => show win5_2.index t (1 : Fin 2) * 64 + 1 * q.val = q.val; rw [e5]; omega
  · show win5_3.index t (0 : Fin 2) * 5000 + 1 * (j 0).val = t.val * 5000 + (j 0).val; rw [e6]; omega
  · show win5_3.index t (1 : Fin 2) * 64 + 1 * (j 1).val = (j 1).val; rw [e7]; omega

/-- An index of the array is in point `t`'s block iff each coordinate is in the block's range on its axis. -/
theorem mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v65).slice (win5_3.rect t)).set ↔ _
  rw [View.set_slice_whole, Rect.mem_set_unit]
  exact Iff.rfl

/-- The ten row blocks cover the array: row `r` is in block `r / 5000`. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ : ∃ t : Fin cfg5.N, t.val = (i 0).val / 5000 := ⟨⟨(i 0).val / 5000, by rw [show cfg5.N = 10 from N_5]; omega⟩, rfl⟩
  obtain ⟨e0, e1, e2, e3, e4, e5, e6, e7⟩ := idx_facts t
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; rw [e6, ht]; omega
  | ⟨1, _⟩ => show win5_3.index t (1 : Fin 2) * 64 ≤ (i 1).val ∧ (i 1).val < win5_3.index t (1 : Fin 2) * 64 + 64; rw [e7]; omega

/-- After the region its output array holds the affine map of the three arrays it found. -/
theorem final (c : Dev nD) : (dat5 (F := Ideal) V c).arrAt 3 cfg5.N = Cert.Gcn.decode (V c main_v63) (V c main_arg8) (V c main_v64) :=
  (dat5 V c).arrAt_eq_of_cover 3 _ (fun t _ => flushed_eq V c t) (cover)

end Cert.KernelIdeal.RegionDecode

end
-- ==== Proof.Regions.lean ====
/-
  What each of the six dense regions leaves in its output array, for any contents `V` of the core's buffers at the
  region's entry: the specification's whole-array function of the arrays the region reads. Each is proved in its own
  module, block by block (a block's rows are the same finite sums as the whole array's rows), and collected here.
-/
import proofs.«128300_j27951647163110_1_alg».proof.Proof.Gen.KernelIdeal.Frame
import proofs.«128300_j27951647163110_1_alg».proof.Proof.GcnSpec
import proofs.«128300_j27951647163110_1_alg».proof.Proof.RegionEncode
import proofs.«128300_j27951647163110_1_alg».proof.Proof.RegionProject
import proofs.«128300_j27951647163110_1_alg».proof.Proof.RegionBiasRelu
import proofs.«128300_j27951647163110_1_alg».proof.Proof.RegionProjectB
import proofs.«128300_j27951647163110_1_alg».proof.Proof.RegionBiasReluB
import proofs.«128300_j27951647163110_1_alg».proof.Proof.RegionDecode
import Idealize.ShloMosaic.Lib.Pipeline.Value

noncomputable section

open Idealize.ShloMosaic Idealize.ShloMosaic.TcCoe Idealize.SL.Sem
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- Region 0 leaves the encoder's affine map of the node features. -/
theorem region0 (c : Dev nD) : (dat0 (F := Ideal) V c).arrAt 3 cfg0.N = Cert.Gcn.encode (V c main_arg0) (V c main_arg2) (V c main_v30) :=
  Cert.KernelIdeal.RegionEncode.final V c
/-- Region 1 leaves the first layer's projection. -/
theorem region1 (c : Dev nD) : (dat1 (F := Ideal) V c).arrAt 2 cfg1.N = Cert.Gcn.project (V c main_v31) (V c main_arg4) :=
  Cert.KernelIdeal.RegionProject.final V c
/-- Region 2 leaves the first layer's bias and clamp. -/
theorem region2 (c : Dev nD) : (dat2 (F := Ideal) V c).arrAt 2 cfg2.N = Cert.Gcn.biasRelu (V c main_v45) (V c main_v46) :=
  Cert.KernelIdeal.RegionBiasRelu.final V c
/-- Region 3 leaves the second layer's projection. -/
theorem region3 (c : Dev nD) : (dat3 (F := Ideal) V c).arrAt 2 cfg3.N = Cert.Gcn.project (V c main_v47) (V c main_arg6) :=
  Cert.KernelIdeal.RegionProjectB.final V c
/-- Region 4 leaves the second layer's bias and clamp. -/
theorem region4 (c : Dev nD) : (dat4 (F := Ideal) V c).arrAt 2 cfg4.N = Cert.Gcn.biasRelu (V c main_v61) (V c main_v62) :=
  Cert.KernelIdeal.RegionBiasReluB.final V c
/-- Region 5 leaves the decoder's affine map into the 64 classes. -/
theorem region5 (c : Dev nD) : (dat5 (F := Ideal) V c).arrAt 3 cfg5.N = Cert.Gcn.decode (V c main_v63) (V c main_arg8) (V c main_v64) :=
  Cert.KernelIdeal.RegionDecode.final V c

end Cert.KernelIdeal.Regions

end
-- ==== Proof.KernelValue.lean ====
/-
  The value of the kernel program's result buffer.

  The program's main function is a chain of host stretches and six pipelined regions; the contents of a core's
  buffers at each boundary are a fold over that chain. Read at the result buffer, the fold comes apart level by level:
  a region's output window holds what that region computes from its input windows, a host stretch's result holds the
  stretch's operations composed over the buffers it reads, and a buffer nothing writes holds what it held before.
  Walked down to the launch memory this is the graph network's forward pass
    decode ∘ (bias+ReLU ∘ aggregate ∘ project) ∘ (bias+ReLU ∘ aggregate ∘ project) ∘ encode
  of the ten parameters, the edge list's sources, destinations and normalisation being the prefix's host operations.
-/
import proofs.«128300_j27951647163110_1_alg».proof.Proof.Gen.KernelIdeal.Frame
import proofs.«128300_j27951647163110_1_alg».proof.Proof.GcnSpec
import proofs.«128300_j27951647163110_1_alg».proof.Proof.Regions
import Idealize.ShloMosaic.Lib.StableHlo.Run

noncomputable section

open Idealize.ShloMosaic Idealize.ShloMosaic.TcCoe Idealize.SL.Sem Idealize.ShloMosaic.StableHlo

namespace Cert.KernelIdeal.KernelValue

open Cert.KernelIdeal Cert.KernelIdeal.Gen

variable (m : (ℓ : Loc nD τ sig) → Buf (Elt Ideal) ℓ) (ρ : Dev nD → PrngReg)

/-! ## Which buffers each host stretch writes

Each stretch writes one buffer per operation; a buffer outside that list keeps its contents across the stretch. -/

abbrev wr0 : List (Ref sig .tc) :=
  [main_v0, main_v1, main_v2, main_v3, main_v4, main_v5, main_v6, main_cst, main_v7, main_cst_0, main_v8, main_v9,
    main_v10, main_cst_1, main_v11, main_v12, main_v13, main_cst_2]
abbrev wr0_1 : List (Ref sig .tc) := [main_call0_v0, main_call0_v1, main_v14]
abbrev wr0_2 : List (Ref sig .tc) :=
  [main_c, main_v15, main_v16, main_c_3, main_v17, main_v18, main_v19, main_v20, main_v21, main_c_4, main_v22, main_v23,
    main_c_5, main_v24, main_v25, main_v26, main_v27, main_v28, main_v29, main_v30]
abbrev wr2 : List (Ref sig .tc) :=
  [main_c_6, main_v33, main_v34, main_c_7, main_v35, main_v36, main_v37, main_v38, main_v39, main_v40, main_v41, main_v42,
    main_cst_8, main_v43, main_v44, main_v45, main_v46]
abbrev wr4 : List (Ref sig .tc) :=
  [main_c_9, main_v49, main_v50, main_c_10, main_v51, main_v52, main_v53, main_v54, main_v55, main_v56, main_v57, main_v58,
    main_cst_11, main_v59, main_v60, main_v61, main_v62]
abbrev wr5 : List (Ref sig .tc) := [main_v64]

/-- Every operation of the stretch writes inside the listed buffers. -/
macro "writes_in" : tactic =>
  `(tactic| (simp only [List.Forall, StableHlo.nullary_writes, StableHlo.unary_writes, StableHlo.binary_writes, StableHlo.ternary_writes, StableHlo.quaternary_writes, StableHlo.reshape_writes, Finset.singleton_subset_iff, List.mem_toFinset]
             repeat' apply And.intro
             all_goals exact List.mem_map_of_mem (by decide)))

theorem writes0 : (hostOps0 : List (HloOp τ sig (Elt Ideal))).Forall fun op => op.writes ⊆ (wr0.map (Proc.devRef (τ := τ) .tc)).toFinset := by writes_in
theorem writes0_1 : (hostOps0_1 : List (HloOp τ sig (Elt Ideal))).Forall fun op => op.writes ⊆ (wr0_1.map (Proc.devRef (τ := τ) .tc)).toFinset := by writes_in
theorem writes0_2 : (hostOps0_2 : List (HloOp τ sig (Elt Ideal))).Forall fun op => op.writes ⊆ (wr0_2.map (Proc.devRef (τ := τ) .tc)).toFinset := by writes_in
theorem writes2 : (hostOps2 : List (HloOp τ sig (Elt Ideal))).Forall fun op => op.writes ⊆ (wr2.map (Proc.devRef (τ := τ) .tc)).toFinset := by writes_in
theorem writes4 : (hostOps4 : List (HloOp τ sig (Elt Ideal))).Forall fun op => op.writes ⊆ (wr4.map (Proc.devRef (τ := τ) .tc)).toFinset := by writes_in
theorem writes5 : (hostOps5 : List (HloOp τ sig (Elt Ideal))).Forall fun op => op.writes ⊆ (wr5.map (Proc.devRef (τ := τ) .tc)).toFinset := by writes_in

theorem W1_keep (c : Dev nD) (r : Ref sig .tc) (h : r ∉ wr0) : W1 m ρ c (Proc.devRef .tc r) = W0 m ρ c (Proc.devRef .tc r) :=
  StableHlo.after_of_writes_sub hostOps0 _ writes0 h
theorem W2_keep (c : Dev nD) (r : Ref sig .tc) (h : r ∉ wr0_1) : W2 m ρ c (Proc.devRef .tc r) = W1 m ρ c (Proc.devRef .tc r) :=
  StableHlo.after_of_writes_sub hostOps0_1 _ writes0_1 h
theorem W3_keep (c : Dev nD) (r : Ref sig .tc) (h : r ∉ wr0_2) : W3 m ρ c (Proc.devRef .tc r) = W2 m ρ c (Proc.devRef .tc r) :=
  StableHlo.after_of_writes_sub hostOps0_2 _ writes0_2 h
theorem W6_keep (c : Dev nD) (r : Ref sig .tc) (h : r ∉ wr2) : W6 m ρ c (Proc.devRef .tc r) = W5 m ρ c (Proc.devRef .tc r) :=
  StableHlo.after_of_writes_sub hostOps2 _ writes2 h
theorem W9_keep (c : Dev nD) (r : Ref sig .tc) (h : r ∉ wr4) : W9 m ρ c (Proc.devRef .tc r) = W8 m ρ c (Proc.devRef .tc r) :=
  StableHlo.after_of_writes_sub hostOps4 _ writes4 h
theorem W11_keep (c : Dev nD) (r : Ref sig .tc) (h : r ∉ wr5) : W11 m ρ c (Proc.devRef .tc r) = W10 m ρ c (Proc.devRef .tc r) :=
  StableHlo.after_of_writes_sub hostOps5 _ writes5 h

/-! ## What each host stretch computes, from any entry contents `U` -/

section Host
variable (U : Valuation τ sig (Elt Ideal))

/-- The sources: row 0 of the edge list, then the self loops. -/
theorem host0_v3 : StableHlo.after hostOps0 U (Proc.devRef .tc main_v3) = Cert.Gcn.srcOf (U (Proc.devRef .tc main_arg1)) := by
  simp only [hostOps0]
  after_results
  rfl

/-- The destinations: row 1 of the edge list, then the self loops. -/
theorem host0_v6 : StableHlo.after hostOps0 U (Proc.devRef .tc main_v6) = Cert.Gcn.dstOf (U (Proc.devRef .tc main_arg1)) := by
  simp only [hostOps0]
  after_results
  rfl

/-- Where the degree is positive. -/
theorem host0_v12 : StableHlo.after hostOps0 U (Proc.devRef .tc main_v12)
    = cmpf (F := Ideal) .ogt (Cert.Gcn.degOf (F := Ideal) (U (Proc.devRef .tc main_arg1))) (broadcastInDim S50000 ![] bcast_S_S50000 (constant S_ .f32 0x00000000#32)) := by
  simp only [hostOps0]
  after_results
  rfl

/-- The degree's inverse square root. -/
theorem host0_v13 : StableHlo.after hostOps0 U (Proc.devRef .tc main_v13)
    = Host.rsqrt (Cert.Gcn.degOf (F := Ideal) (U (Proc.devRef .tc main_arg1))) := by
  simp only [hostOps0]
  after_results
  rfl

/-- The zero the masked entries take. -/
theorem host0_cst2 : StableHlo.after hostOps0 U (Proc.devRef .tc main_cst_2) = constant (F := Ideal) S_ .f32 0x00000000#32 := by
  simp only [hostOps0]
  after_results

/-- The masked choice between the inverse square root and zero. -/
theorem host01_v14 : StableHlo.after hostOps0_1 U (Proc.devRef .tc main_v14)
    = select (U (Proc.devRef .tc main_v12)) (U (Proc.devRef .tc main_v13)) (broadcastInDim S50000 ![] bcast_S_S50000 (U (Proc.devRef .tc main_cst_2))) := by
  simp only [hostOps0_1]
  after_results
  rfl

end Host

section Host2
variable (U : Valuation τ sig (Elt Ideal))

/-- Every edge's normalisation: the masked inverse square root gathered at the wrapped sources and at the wrapped
    destinations, multiplied. -/
theorem host02_v29 : StableHlo.after hostOps0_2 U (Proc.devRef .tc main_v29)
    = (mulf (F := Ideal) (φ := .f32)
        (Host.gather gather_S50000_S1650000x1_S1650000_n_0_n_n_0_1_1 (U (Proc.devRef .tc main_v14))
          (broadcastInDim S1650000x1 ![0] bcast_S1650000_S1650000x1_0 (Cert.Gcn.wrapIdx (U (Proc.devRef .tc main_v3)))))
        (Host.gather gather_S50000_S1650000x1_S1650000_n_0_n_n_0_1_1 (U (Proc.devRef .tc main_v14))
          (broadcastInDim S1650000x1 ![0] bcast_S1650000_S1650000x1_0 (Cert.Gcn.wrapIdx (U (Proc.devRef .tc main_v6))))) : FVec Ideal S1650000 .f32) := by
  simp only [hostOps0_2]
  after_results_simp
  rfl

/-- The encoder's bias as a one-row matrix. -/
theorem host02_v30 : StableHlo.after hostOps0_2 U (Proc.devRef .tc main_v30) = Cert.Gcn.row128 (F := Ideal) (U (Proc.devRef .tc main_arg3)) := by
  simp only [hostOps0_2]
  after_results
  rfl

/-- The first layer's message passing. -/
theorem host2_v45 : StableHlo.after hostOps2 U (Proc.devRef .tc main_v45)
    = Cert.Gcn.aggregate (U (Proc.devRef .tc main_v32)) (U (Proc.devRef .tc main_v3)) (U (Proc.devRef .tc main_v6)) (U (Proc.devRef .tc main_v29)) := by
  simp only [hostOps2]
  after_results_simp
  rfl

/-- The first layer's bias as a one-row matrix. -/
theorem host2_v46 : StableHlo.after hostOps2 U (Proc.devRef .tc main_v46) = Cert.Gcn.row128 (F := Ideal) (U (Proc.devRef .tc main_arg5)) := by
  simp only [hostOps2]
  after_results
  rfl

/-- The second layer's message passing. -/
theorem host4_v61 : StableHlo.after hostOps4 U (Proc.devRef .tc main_v61)
    = Cert.Gcn.aggregate (U (Proc.devRef .tc main_v48)) (U (Proc.devRef .tc main_v3)) (U (Proc.devRef .tc main_v6)) (U (Proc.devRef .tc main_v29)) := by
  simp only [hostOps4]
  after_results_simp
  rfl

/-- The second layer's bias as a one-row matrix. -/
theorem host4_v62 : StableHlo.after hostOps4 U (Proc.devRef .tc main_v62) = Cert.Gcn.row128 (F := Ideal) (U (Proc.devRef .tc main_arg7)) := by
  simp only [hostOps4]
  after_results
  rfl

/-- The decoder's bias as a one-row matrix. -/
theorem host5_v64 : StableHlo.after hostOps5 U (Proc.devRef .tc main_v64) = Cert.Gcn.row64 (F := Ideal) (U (Proc.devRef .tc main_arg9)) := by
  simp only [hostOps5]
  after_results
  rfl

end Host2

/-! ## Buffers that come through unchanged

A buffer outside a stretch's written list, and outside a region's windows, holds after it what it held before. -/

section Keep
variable (c : Dev nD) (r : Ref sig .tc)

/-- Up to the first region's entry nothing has touched a buffer the prefix does not write: it holds the launch memory. -/
theorem at2 (h0 : r ∉ wr0) (h1 : r ∉ wr0_1) : W2 m ρ c (Proc.devRef .tc r) = m ((c : Thread nD τ).loc r) :=
  (W2_keep m ρ c r h1).trans ((W1_keep m ρ c r h0).trans rfl)
theorem at3 (h0 : r ∉ wr0) (h1 : r ∉ wr0_1) (h2 : r ∉ wr0_2) : W3 m ρ c (Proc.devRef .tc r) = m ((c : Thread nD τ).loc r) :=
  (W3_keep m ρ c r h2).trans (at2 m ρ c r h0 h1)

/-- Across regions 0 and 1. -/
theorem W5_W3 (n0 : ∀ w, Pipeline.arrRef spec0 w ≠ r) (n1 : ∀ w, Pipeline.arrRef spec1 w ≠ r) :
    W5 m ρ c (Proc.devRef .tc r) = W3 m ρ c (Proc.devRef .tc r) :=
  (W5_of_ne m ρ c r n1).trans (W4_of_ne m ρ c r n0)
/-- Across the second host stretch and regions 2 and 3. -/
theorem W8_W5 (h : r ∉ wr2) (n2 : ∀ w, Pipeline.arrRef spec2 w ≠ r) (n3 : ∀ w, Pipeline.arrRef spec3 w ≠ r) :
    W8 m ρ c (Proc.devRef .tc r) = W5 m ρ c (Proc.devRef .tc r) :=
  (W8_of_ne m ρ c r n3).trans ((W7_of_ne m ρ c r n2).trans (W6_keep m ρ c r h))
/-- Across region 2 alone, from the second host stretch's entry. -/
theorem W7_W5 (h : r ∉ wr2) (n2 : ∀ w, Pipeline.arrRef spec2 w ≠ r) :
    W7 m ρ c (Proc.devRef .tc r) = W5 m ρ c (Proc.devRef .tc r) :=
  (W7_of_ne m ρ c r n2).trans (W6_keep m ρ c r h)
/-- Across the third host stretch and region 4. -/
theorem W10_W8 (h : r ∉ wr4) (n4 : ∀ w, Pipeline.arrRef spec4 w ≠ r) :
    W10 m ρ c (Proc.devRef .tc r) = W8 m ρ c (Proc.devRef .tc r) :=
  (W10_of_ne m ρ c r n4).trans (W9_keep m ρ c r h)

end Keep

/-! ## The parameters where they are read -/

section Args
variable (c : Dev nD)

theorem arg0_3 : W3 m ρ c (Proc.devRef .tc main_arg0) = m ((c : Thread nD τ).loc main_arg0) := at3 m ρ c _ (by decide) (by decide) (by decide)
theorem arg2_3 : W3 m ρ c (Proc.devRef .tc main_arg2) = m ((c : Thread nD τ).loc main_arg2) := at3 m ρ c _ (by decide) (by decide) (by decide)
theorem arg3_2 : W2 m ρ c (Proc.devRef .tc main_arg3) = m ((c : Thread nD τ).loc main_arg3) := at2 m ρ c _ (by decide) (by decide)
theorem arg4_4 : W4 m ρ c (Proc.devRef .tc main_arg4) = m ((c : Thread nD τ).loc main_arg4) :=
  (W4_of_ne m ρ c _ (by decide)).trans (at3 m ρ c _ (by decide) (by decide) (by decide))
theorem arg5_5 : W5 m ρ c (Proc.devRef .tc main_arg5) = m ((c : Thread nD τ).loc main_arg5) :=
  (W5_W3 m ρ c _ (by decide) (by decide)).trans (at3 m ρ c _ (by decide) (by decide) (by decide))
theorem arg6_7 : W7 m ρ c (Proc.devRef .tc main_arg6) = m ((c : Thread nD τ).loc main_arg6) :=
  (W7_W5 m ρ c _ (by decide) (by decide)).trans ((W5_W3 m ρ c _ (by decide) (by decide)).trans (at3 m ρ c _ (by decide) (by decide) (by decide)))
theorem arg7_8 : W8 m ρ c (Proc.devRef .tc main_arg7) = m ((c : Thread nD τ).loc main_arg7) :=
  (W8_W5 m ρ c _ (by decide) (by decide) (by decide)).trans ((W5_W3 m ρ c _ (by decide) (by decide)).trans (at3 m ρ c _ (by decide) (by decide) (by decide)))
theorem arg9_10 : W10 m ρ c (Proc.devRef .tc main_arg9) = m ((c : Thread nD τ).loc main_arg9) :=
  (W10_W8 m ρ c _ (by decide) (by decide)).trans ((W8_W5 m ρ c _ (by decide) (by decide) (by decide)).trans ((W5_W3 m ρ c _ (by decide) (by decide)).trans (at3 m ρ c _ (by decide) (by decide) (by decide))))
theorem arg8_11 : W11 m ρ c (Proc.devRef .tc main_arg8) = m ((c : Thread nD τ).loc main_arg8) :=
  (W11_keep m ρ c _ (by decide)).trans ((W10_W8 m ρ c _ (by decide) (by decide)).trans ((W8_W5 m ρ c _ (by decide) (by decide) (by decide)).trans ((W5_W3 m ρ c _ (by decide) (by decide)).trans (at3 m ρ c _ (by decide) (by decide) (by decide)))))

end Args

/-! ## The walk: every buffer the result depends on, level by level -/

section Walk
variable (c : Dev nD)

/-- Core `c`'s launch contents of a parameter. -/
abbrev inp (r : Ref sig .tc) : Buf (Elt Ideal) ((c : Thread nD τ).loc r) := m ((c : Thread nD τ).loc r)

/-! ### The edge list's derived arrays (the prefix) -/

theorem v3_1 : W1 m ρ c (Proc.devRef .tc main_v3) = Cert.Gcn.srcOf (inp m c main_arg1) := host0_v3 (W0 m ρ c)
theorem v6_1 : W1 m ρ c (Proc.devRef .tc main_v6) = Cert.Gcn.dstOf (inp m c main_arg1) := host0_v6 (W0 m ρ c)
theorem v12_1 : W1 m ρ c (Proc.devRef .tc main_v12)
    = cmpf (F := Ideal) .ogt (Cert.Gcn.degOf (F := Ideal) (inp m c main_arg1)) (broadcastInDim S50000 ![] bcast_S_S50000 (constant S_ .f32 0x00000000#32)) :=
  host0_v12 (W0 m ρ c)
theorem v13_1 : W1 m ρ c (Proc.devRef .tc main_v13) = Host.rsqrt (Cert.Gcn.degOf (F := Ideal) (inp m c main_arg1)) := host0_v13 (W0 m ρ c)
theorem cst2_1 : W1 m ρ c (Proc.devRef .tc main_cst_2) = constant (F := Ideal) S_ .f32 0x00000000#32 := host0_cst2 (W0 m ρ c)

theorem v14_2 : W2 m ρ c (Proc.devRef .tc main_v14) = Cert.Gcn.dinvOf (F := Ideal) (inp m c main_arg1) := by
  have h := host01_v14 (W1 m ρ c)
  rw [v12_1 m ρ c, v13_1 m ρ c, cst2_1 m ρ c] at h
  exact h
theorem v3_2 : W2 m ρ c (Proc.devRef .tc main_v3) = Cert.Gcn.srcOf (inp m c main_arg1) := (W2_keep m ρ c _ (by decide)).trans (v3_1 m ρ c)
theorem v6_2 : W2 m ρ c (Proc.devRef .tc main_v6) = Cert.Gcn.dstOf (inp m c main_arg1) := (W2_keep m ρ c _ (by decide)).trans (v6_1 m ρ c)
theorem v3_3 : W3 m ρ c (Proc.devRef .tc main_v3) = Cert.Gcn.srcOf (inp m c main_arg1) := (W3_keep m ρ c _ (by decide)).trans (v3_2 m ρ c)
theorem v6_3 : W3 m ρ c (Proc.devRef .tc main_v6) = Cert.Gcn.dstOf (inp m c main_arg1) := (W3_keep m ρ c _ (by decide)).trans (v6_2 m ρ c)
theorem v29_3 : W3 m ρ c (Proc.devRef .tc main_v29) = Cert.Gcn.normOf (F := Ideal) (inp m c main_arg1) := by
  have h := host02_v29 (W2 m ρ c)
  rw [v14_2 m ρ c, v3_2 m ρ c, v6_2 m ρ c] at h
  exact h
theorem v30_3 : W3 m ρ c (Proc.devRef .tc main_v30) = Cert.Gcn.row128 (F := Ideal) (inp m c main_arg3) := by
  have h := host02_v30 (W2 m ρ c)
  rw [arg3_2 m ρ c] at h
  exact h

/-- No later stretch and no region writes the three derived arrays. -/
theorem v3_5 : W5 m ρ c (Proc.devRef .tc main_v3) = Cert.Gcn.srcOf (inp m c main_arg1) := (W5_W3 m ρ c _ (by decide) (by decide)).trans (v3_3 m ρ c)
theorem v6_5 : W5 m ρ c (Proc.devRef .tc main_v6) = Cert.Gcn.dstOf (inp m c main_arg1) := (W5_W3 m ρ c _ (by decide) (by decide)).trans (v6_3 m ρ c)
theorem v29_5 : W5 m ρ c (Proc.devRef .tc main_v29) = Cert.Gcn.normOf (F := Ideal) (inp m c main_arg1) := (W5_W3 m ρ c _ (by decide) (by decide)).trans (v29_3 m ρ c)
theorem v3_8 : W8 m ρ c (Proc.devRef .tc main_v3) = Cert.Gcn.srcOf (inp m c main_arg1) := (W8_W5 m ρ c _ (by decide) (by decide) (by decide)).trans (v3_5 m ρ c)
theorem v6_8 : W8 m ρ c (Proc.devRef .tc main_v6) = Cert.Gcn.dstOf (inp m c main_arg1) := (W8_W5 m ρ c _ (by decide) (by decide) (by decide)).trans (v6_5 m ρ c)
theorem v29_8 : W8 m ρ c (Proc.devRef .tc main_v29) = Cert.Gcn.normOf (F := Ideal) (inp m c main_arg1) := (W8_W5 m ρ c _ (by decide) (by decide) (by decide)).trans (v29_5 m ρ c)

/-! ### The layers' values -/

/-- The encoder's output. -/
abbrev enc : FVec Ideal S50000x128 .f32 := Cert.Gcn.encode (inp m c main_arg0) (inp m c main_arg2) (Cert.Gcn.row128 (inp m c main_arg3))
/-- Message passing over this launch's edge list. -/
abbrev agg (H : FVec Ideal S50000x128 .f32) : FVec Ideal S50000x128 .f32 :=
  Cert.Gcn.aggregate H (Cert.Gcn.srcOf (inp m c main_arg1)) (Cert.Gcn.dstOf (inp m c main_arg1)) (Cert.Gcn.normOf (F := Ideal) (inp m c main_arg1))
/-- The first layer's output. -/
abbrev lay1 : FVec Ideal S50000x128 .f32 :=
  Cert.Gcn.biasRelu (agg m c (Cert.Gcn.project (enc m c) (inp m c main_arg4))) (Cert.Gcn.row128 (inp m c main_arg5))
/-- The second layer's output. -/
abbrev lay2 : FVec Ideal S50000x128 .f32 :=
  Cert.Gcn.biasRelu (agg m c (Cert.Gcn.project (lay1 m c) (inp m c main_arg6))) (Cert.Gcn.row128 (inp m c main_arg7))

/-- Region 0 leaves the encoder's output. -/
theorem v31_4 : W4 m ρ c (Proc.devRef .tc main_v31) = enc m c := by
  refine (W4_arr m ρ c 3).trans ((Regions.region0 (V3 m ρ) c).trans ?_)
  show Cert.Gcn.encode (W3 m ρ c (Proc.devRef .tc main_arg0)) (W3 m ρ c (Proc.devRef .tc main_arg2)) (W3 m ρ c (Proc.devRef .tc main_v30)) = _
  rw [arg0_3 m ρ c, arg2_3 m ρ c, v30_3 m ρ c]

/-- Region 1 leaves the first layer's projection. -/
theorem v32_5 : W5 m ρ c (Proc.devRef .tc main_v32) = Cert.Gcn.project (enc m c) (inp m c main_arg4) := by
  refine (W5_arr m ρ c 2).trans ((Regions.region1 (V4 m ρ) c).trans ?_)
  show Cert.Gcn.project (W4 m ρ c (Proc.devRef .tc main_v31)) (W4 m ρ c (Proc.devRef .tc main_arg4)) = _
  rw [v31_4 m ρ c, arg4_4 m ρ c]

/-- The second host stretch aggregates it and lays the bias out. -/
theorem v45_6 : W6 m ρ c (Proc.devRef .tc main_v45) = agg m c (Cert.Gcn.project (enc m c) (inp m c main_arg4)) := by
  have h := host2_v45 (W5 m ρ c)
  rw [v32_5 m ρ c, v3_5 m ρ c, v6_5 m ρ c, v29_5 m ρ c] at h
  exact h
theorem v46_6 : W6 m ρ c (Proc.devRef .tc main_v46) = Cert.Gcn.row128 (F := Ideal) (inp m c main_arg5) := by
  have h := host2_v46 (W5 m ρ c)
  rw [arg5_5 m ρ c] at h
  exact h

/-- Region 2 leaves the first layer's output. -/
theorem v47_7 : W7 m ρ c (Proc.devRef .tc main_v47) = lay1 m c := by
  refine (W7_arr m ρ c 2).trans ((Regions.region2 (V6 m ρ) c).trans ?_)
  show Cert.Gcn.biasRelu (W6 m ρ c (Proc.devRef .tc main_v45)) (W6 m ρ c (Proc.devRef .tc main_v46)) = _
  rw [v45_6 m ρ c, v46_6 m ρ c]

/-- Region 3 leaves the second layer's projection. -/
theorem v48_8 : W8 m ρ c (Proc.devRef .tc main_v48) = Cert.Gcn.project (lay1 m c) (inp m c main_arg6) := by
  refine (W8_arr m ρ c 2).trans ((Regions.region3 (V7 m ρ) c).trans ?_)
  show Cert.Gcn.project (W7 m ρ c (Proc.devRef .tc main_v47)) (W7 m ρ c (Proc.devRef .tc main_arg6)) = _
  rw [v47_7 m ρ c, arg6_7 m ρ c]

/-- The third host stretch aggregates it and lays the bias out. -/
theorem v61_9 : W9 m ρ c (Proc.devRef .tc main_v61) = agg m c (Cert.Gcn.project (lay1 m c) (inp m c main_arg6)) := by
  have h := host4_v61 (W8 m ρ c)
  rw [v48_8 m ρ c, v3_8 m ρ c, v6_8 m ρ c, v29_8 m ρ c] at h
  exact h
theorem v62_9 : W9 m ρ c (Proc.devRef .tc main_v62) = Cert.Gcn.row128 (F := Ideal) (inp m c main_arg7) := by
  have h := host4_v62 (W8 m ρ c)
  rw [arg7_8 m ρ c] at h
  exact h

/-- Region 4 leaves the second layer's output, and the last host stretch does not touch it. -/
theorem v63_10 : W10 m ρ c (Proc.devRef .tc main_v63) = lay2 m c := by
  refine (W10_arr m ρ c 2).trans ((Regions.region4 (V9 m ρ) c).trans ?_)
  show Cert.Gcn.biasRelu (W9 m ρ c (Proc.devRef .tc main_v61)) (W9 m ρ c (Proc.devRef .tc main_v62)) = _
  rw [v61_9 m ρ c, v62_9 m ρ c]
theorem v63_11 : W11 m ρ c (Proc.devRef .tc main_v63) = lay2 m c := (W11_keep m ρ c _ (by decide)).trans (v63_10 m ρ c)
theorem v64_11 : W11 m ρ c (Proc.devRef .tc main_v64) = Cert.Gcn.row64 (F := Ideal) (inp m c main_arg9) := by
  have h := host5_v64 (W10 m ρ c)
  rw [arg9_10 m ρ c] at h
  exact h

end Walk

/-- Region 5 decodes the second layer's output: the result buffer holds the network's forward pass of the launch
    contents of the ten parameters. -/
theorem result_eq (c : Dev nD) :
    W12 m ρ c (Proc.devRef .tc main_v65)
      = Cert.Gcn.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Regions.region5 (V11 m ρ) c).trans ?_)
  show Cert.Gcn.decode (W11 m ρ c (Proc.devRef .tc main_v63)) (W11 m ρ c (Proc.devRef .tc main_arg8)) (W11 m ρ c (Proc.devRef .tc main_v64)) = _
  rw [v63_11 m ρ c, arg8_11 m ρ c, v64_11 m ρ c]
  rfl

end Cert.KernelIdeal.KernelValue

end
-- ==== Proof.RefValue.lean ====
import proofs.«128300_j27951647163110_1_alg».proof.Proof.RefRun
import proofs.«128300_j27951647163110_1_alg».proof.Proof.GcnSpec
import Idealize.ShloMosaic.Lib.Pipeline.Value
import Idealize.ShloMosaic.Lib.ValueIdx
import Idealize.ShloMosaic.PureOps.Ideal.Laws

/-
  The reference program's result as the specification's function of the ten inputs.

  The reference computes  decode ∘ (bias+ReLU ∘ aggregate ∘ project) ∘ (bias+ReLU ∘ aggregate ∘ project) ∘ encode  by whole-array
  operations. Each dense stage is read entry by entry: over the extended reals a matrix product's entry (r, q) is
  ∑ₖ X[r,k]·W[k,q] (the contraction has one axis, re-indexed by its one coordinate), and a bias vector laid out as a one-row
  matrix and repeated down the rows contributes its entry q. That identifies the four stages with the specification's
  `encode`, `project`, `biasRelu`, `decode`. The aggregation and the edge list's three derived arrays are the same host
  operations on both sides, spelt with each program's own copies of the shapes and dimension records, which are the same
  literals; they are never opened.
-/

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-! ## The matrix products, entry by entry -/

/-- Row coordinate of the left operand's index: the result's row. -/
theorem lhsA_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- Column coordinate of the left operand's index: the contraction position. -/
theorem lhsA_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- Row coordinate of the right operand's index: the contraction position. -/
theorem rhsA_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- Column coordinate of the right operand's index: the result's column. -/
theorem rhsA_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- The left operand's index at result index `i` and contraction position `k`: row `i 0`, column `k`. -/
abbrev lidxA (i : S50000x128.Idx) (k : Fin 128) : S50000x128.Idx := fun a => match a with
  | ⟨0, _⟩ => ⟨(i 0).val, (i 0).isLt⟩
  | ⟨1, _⟩ => ⟨k.val, k.isLt⟩
/-- The right operand's index at result index `i` and contraction position `k`: row `k`, column `i 1`. -/
abbrev ridxA (i : S50000x128.Idx) (k : Fin 128) : S128x128.Idx := fun a => match a with
  | ⟨0, _⟩ => ⟨k.val, k.isLt⟩
  | ⟨1, _⟩ => ⟨(i 1).val, (i 1).isLt⟩
/-- Over the extended reals the matrix product's entry is the sum over the one contracted axis. -/
theorem dotA_apply (X : FVec Ideal S50000x128 .f32) (W : FVec Ideal S128x128 .f32) (i : S50000x128.Idx) :
    Host.dotGeneral dot_S50000x128_S128x128_S50000x128_1_0_0_1_n_n none X W i = ∑ k : Fin 128, X (lidxA i k) * W (ridxA i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidxA i k := funext fun a => Fin.ext (by
    match a with
    | ⟨0, _⟩ => exact lhsA_0 _ _
    | ⟨1, _⟩ => exact (lhsA_1 _ _).trans hk)
  have er : dot_S50000x128_S128x128_S50000x128_1_0_0_1_n_n.rhsIdx i ((ValueIdx.contrEquiv1 dot_S50000x128_S128x128_S50000x128_1_0_0_1_n_n 128 rfl rfl).symm k) = ridxA i k := funext fun a => Fin.ext (by
    match a with
    | ⟨0, _⟩ => exact (rhsA_0 _ _).trans hk
    | ⟨1, _⟩ => exact rhsA_1 _ _)
  rw [el, er]
/-- The same entry with the operands' indices built from coordinates. -/
theorem dotA_dotAt (X : FVec Ideal S50000x128 .f32) (W : FVec Ideal S128x128 .f32) (i : S50000x128.Idx) :
    Host.dotGeneral dot_S50000x128_S128x128_S50000x128_1_0_0_1_n_n none X W i = ∑ k : Fin 128, X (ix2 (i 0) k) * W (ix2 k (i 1)) := by
  rw [dotA_apply]
  refine Finset.sum_congr rfl fun k _ => ?_
  have el : lidxA i k = ix2 (i 0) k := funext fun a => Fin.ext (by match a with | ⟨0, _⟩ => rfl | ⟨1, _⟩ => rfl)
  have er : ridxA i k = ix2 k (i 1) := funext fun a => Fin.ext (by match a with | ⟨0, _⟩ => rfl | ⟨1, _⟩ => rfl)
  exact congrArg₂ (· * ·) (congrArg X el) (congrArg W er)

/-- Row coordinate of the left operand's index: the result's row. -/
theorem lhsB_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
/-- Column coordinate of the left operand's index: the contraction position. -/
theorem lhsB_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
/-- Row coordinate of the right operand's index: the contraction position. -/
theorem rhsB_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
/-- Column coordinate of the right operand's index: the result's column. -/
theorem rhsB_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl
/-- The left operand's index at result index `i` and contraction position `k`: row `i 0`, column `k`. -/
abbrev lidxB (i : S50000x64.Idx) (k : Fin 128) : S50000x128.Idx := fun a => match a with
  | ⟨0, _⟩ => ⟨(i 0).val, (i 0).isLt⟩
  | ⟨1, _⟩ => ⟨k.val, k.isLt⟩
/-- The right operand's index at result index `i` and contraction position `k`: row `k`, column `i 1`. -/
abbrev ridxB (i : S50000x64.Idx) (k : Fin 128) : S128x64.Idx := fun a => match a with
  | ⟨0, _⟩ => ⟨k.val, k.isLt⟩
  | ⟨1, _⟩ => ⟨(i 1).val, (i 1).isLt⟩
/-- Over the extended reals the matrix product's entry is the sum over the one contracted axis. -/
theorem dotB_apply (X : FVec Ideal S50000x128 .f32) (W : FVec Ideal S128x64 .f32) (i : S50000x64.Idx) :
    Host.dotGeneral dot_S50000x128_S128x64_S50000x64_1_0_0_1_n_n none X W i = ∑ k : Fin 128, X (lidxB i k) * W (ridxB i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidxB i k := funext fun a => Fin.ext (by
    match a with
    | ⟨0, _⟩ => exact lhsB_0 _ _
    | ⟨1, _⟩ => exact (lhsB_1 _ _).trans hk)
  have er : dot_S50000x128_S128x64_S50000x64_1_0_0_1_n_n.rhsIdx i ((ValueIdx.contrEquiv1 dot_S50000x128_S128x64_S50000x64_1_0_0_1_n_n 128 rfl rfl).symm k) = ridxB i k := funext fun a => Fin.ext (by
    match a with
    | ⟨0, _⟩ => exact (rhsB_0 _ _).trans hk
    | ⟨1, _⟩ => exact rhsB_1 _ _)
  rw [el, er]
/-- The same entry with the operands' indices built from coordinates. -/
theorem dotB_dotAt (X : FVec Ideal S50000x128 .f32) (W : FVec Ideal S128x64 .f32) (i : S50000x64.Idx) :
    Host.dotGeneral dot_S50000x128_S128x64_S50000x64_1_0_0_1_n_n none X W i = ∑ k : Fin 128, X (ix2 (i 0) k) * W (ix2 k (i 1)) := by
  rw [dotB_apply]
  refine Finset.sum_congr rfl fun k _ => ?_
  have el : lidxB i k = ix2 (i 0) k := funext fun a => Fin.ext (by match a with | ⟨0, _⟩ => rfl | ⟨1, _⟩ => rfl)
  have er : ridxB i k = ix2 k (i 1) := funext fun a => Fin.ext (by match a with | ⟨0, _⟩ => rfl | ⟨1, _⟩ => rfl)
  exact congrArg₂ (· * ·) (congrArg X el) (congrArg W er)

/-! ## The bias rows -/

/-- A bias vector laid out as a one-row matrix and repeated down the rows reads, at row `r` and column `q`, its entry `q`. -/
theorem biasA_apply (b : FVec Ideal S128 .f32) (i : S50000x128.Idx) :
    broadcastInDim S50000x128 ![0, 1] bcast_S1x128_S50000x128_0_1 (broadcastInDim S1x128 ![1] bcast_S128_S1x128_1 b) i = b (ix1 (i 1)) := by
  have h2 := broadcastInDim_apply _ bcast_S1x128_S50000x128_0_1 (broadcastInDim S1x128 ![1] bcast_S128_S1x128_1 b) i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
  have h1 := broadcastInDim_apply _ bcast_S128_S1x128_1 b (ix2 (0 : Fin 1) (i 1)) (ix1 (i 1)) (fun a => match a with
    | ⟨0, _⟩ => by show (i 1).val = if (128 : Nat) = 1 then 0 else (i 1).val; rw [if_neg (by decide)])
  exact h2.trans h1
/-- The specification's one-row layout of a bias vector reads, at column `q`, its entry `q`. -/
theorem row128_apply (b : FVec Ideal S128 .f32) (q : Fin 128) :
    Cert.Gcn.row128 b (ix2 (0 : Fin 1) q) = b (ix1 q) := by
  unfold Cert.Gcn.row128
  refine shapeCast_apply _ _ _ _ ?_
  rw [Shape.rowMajor_val_one, Shape.rowMajor_val_two]
  show q.val = 0 * _ + q.val
  omega

/-- A bias vector laid out as a one-row matrix and repeated down the rows reads, at row `r` and column `q`, its entry `q`. -/
theorem biasB_apply (b : FVec Ideal S64 .f32) (i : S50000x64.Idx) :
    broadcastInDim S50000x64 ![0, 1] bcast_S1x64_S50000x64_0_1 (broadcastInDim S1x64 ![1] bcast_S64_S1x64_1 b) i = b (ix1 (i 1)) := by
  have h2 := broadcastInDim_apply _ bcast_S1x64_S50000x64_0_1 (broadcastInDim S1x64 ![1] bcast_S64_S1x64_1 b) i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
  have h1 := broadcastInDim_apply _ bcast_S64_S1x64_1 b (ix2 (0 : Fin 1) (i 1)) (ix1 (i 1)) (fun a => match a with
    | ⟨0, _⟩ => by show (i 1).val = if (64 : Nat) = 1 then 0 else (i 1).val; rw [if_neg (by decide)])
  exact h2.trans h1
/-- The specification's one-row layout of a bias vector reads, at column `q`, its entry `q`. -/
theorem row64_apply (b : FVec Ideal S64 .f32) (q : Fin 64) :
    Cert.Gcn.row64 b (ix2 (0 : Fin 1) q) = b (ix1 q) := by
  unfold Cert.Gcn.row64
  refine shapeCast_apply _ _ _ _ ?_
  rw [Shape.rowMajor_val_one, Shape.rowMajor_val_two]
  show q.val = 0 * _ + q.val
  omega

/-! ## The four dense stages -/

/-- The encoder: product plus the bias row. -/
theorem ref_encode (X : FVec Ideal S50000x128 .f32) (W : FVec Ideal S128x128 .f32) (b : FVec Ideal S128 .f32) :
    addf (Host.dotGeneral dot_S50000x128_S128x128_S50000x128_1_0_0_1_n_n none X W) (broadcastInDim S50000x128 ![0, 1] bcast_S1x128_S50000x128_0_1 (broadcastInDim S1x128 ![1] bcast_S128_S1x128_1 b))
      = Cert.Gcn.encode X W (Cert.Gcn.row128 b) := by
  funext i
  rw [addf_apply, dotA_dotAt, biasA_apply]
  exact congrArg (fun t => (∑ k : Fin 128, X (ix2 (i 0) k) * W (ix2 k (i 1))) + t) (row128_apply b (i 1)).symm

/-- A layer's dense map: the product alone. -/
theorem ref_project (X : FVec Ideal S50000x128 .f32) (W : FVec Ideal S128x128 .f32) :
    Host.dotGeneral dot_S50000x128_S128x128_S50000x128_1_0_0_1_n_n none X W = Cert.Gcn.project X W := by
  funext i
  rw [dotA_dotAt]
  rfl

/-- A layer's epilogue: the bias row added, then the maximum with the zero matrix. -/
theorem ref_biasRelu (S : FVec Ideal S50000x128 .f32) (b : FVec Ideal S128 .f32) :
    maximumf (addf S (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = Cert.Gcn.biasRelu S (Cert.Gcn.row128 b) := by
  funext i
  have hb : addf S (broadcastInDim S50000x128 ![0, 1] bcast_S1x128_S50000x128_0_1 (broadcastInDim S1x128 ![1] bcast_S128_S1x128_1 b)) i
      = S i + Cert.Gcn.row128 b (ix2 (0 : Fin 1) (i 1)) := by
    rw [addf_apply, biasA_apply]
    exact congrArg (fun t => S i + t) (row128_apply b (i 1)).symm
  exact congrArg (fun t => FloatOps.maximumf t (Scalar.ofBits (F := Ideal) .f32 0x00000000#32)) hb

/-- The decoder: product into 64 columns plus the bias row. -/
theorem ref_decode (X : FVec Ideal S50000x128 .f32) (W : FVec Ideal S128x64 .f32) (b : FVec Ideal S64 .f32) :
    addf (Host.dotGeneral dot_S50000x128_S128x64_S50000x64_1_0_0_1_n_n none X W) (broadcastInDim S50000x64 ![0, 1] bcast_S1x64_S50000x64_0_1 (broadcastInDim S1x64 ![1] bcast_S64_S1x64_1 b))
      = Cert.Gcn.decode X W (Cert.Gcn.row64 b) := by
  funext i
  rw [addf_apply, dotB_dotAt, biasB_apply]
  exact congrArg (fun t => (∑ k : Fin 128, X (ix2 (i 0) k) * W (ix2 k (i 1))) + t) (row64_apply b (i 1)).symm

/-! ## The whole network -/

variable (m : (ℓ : Loc nD τ sig) → Buf (Elt Ideal) ℓ)

/-- The reference's result is the forward pass of the ten inputs: the four dense stages are the specification's by the
    lemmas above (the encoder first, so that its product is not taken for a layer's), and what remains on the two sides,
    the two aggregations over the edge list's derived arrays, is the same operations on the same literal shapes and
    dimension records. -/
theorem ref_eq (c : Dev nD) :
    Cert.ReferenceIdeal.RunP.res_main_v73 (F := Ideal) m c
      = Cert.Gcn.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.RunP.res_main_v73
  rw [ref_encode, ref_project, ref_project, ref_biasRelu, ref_biasRelu, ref_decode]
  unfold Cert.Gcn.forward Cert.Gcn.net Cert.Gcn.aggregate Cert.Gcn.normOf Cert.Gcn.dinvOf Cert.Gcn.degOf Cert.Gcn.srcOf Cert.Gcn.dstOf Cert.Gcn.wrapIdx
  rfl

end Cert.ReferenceIdeal.RefValue

end
-- ==== Proof.lean ====
/-
  Kernel and reference compute one function of the ten inputs, the forward pass of a two-layer graph convolution network
  (`Cert.Gcn.forward`, Proof/GcnSpec.lean): a linear encoder, twice (project · aggregate over the edges · add the bias · clamp at
  zero), a linear decoder. The kernel program does the six dense pieces in row blocks of 5000 nodes, each block's rows a
  product with the whole weight matrix, and leaves the edge aggregation to the host operations the reference uses too; the
  reference does each dense piece as one whole product. Over the extended reals a row of a product is the same finite sum
  either way, so nothing here needs the inputs finite.
-/
import proofs.«128300_j27951647163110_1_alg».proof.Defs
import proofs.«128300_j27951647163110_1_alg».proof.Proof.Gen.Kernel
import proofs.«128300_j27951647163110_1_alg».proof.Proof.Gen.Kernel.Frame
import proofs.«128300_j27951647163110_1_alg».proof.Proof.Gen.KernelIdeal
import proofs.«128300_j27951647163110_1_alg».proof.Proof.Gen.KernelIdeal.Frame
import proofs.«128300_j27951647163110_1_alg».proof.Proof.Gen.ReferenceIdeal
import proofs.«128300_j27951647163110_1_alg».proof.Proof.Gen.Pre_finite_inputs
import proofs.«128300_j27951647163110_1_alg».proof.Proof.GcnSpec
import proofs.«128300_j27951647163110_1_alg».proof.Proof.KernelRun
import proofs.«128300_j27951647163110_1_alg».proof.Proof.KernelValue
import proofs.«128300_j27951647163110_1_alg».proof.Proof.RefRun
import proofs.«128300_j27951647163110_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both idealized programs end with the forward pass of the inputs in their result array. -/
theorem algebraic : Cert.algebraic_KernelIdeal_ReferenceIdeal := by
  intro m ρ m' ρ' _ hagree
  refine ⟨fun c => Cert.Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result_eq m ρ c), (h c).2⟩)
      (Cert.KernelIdeal.RunP.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7, e8, e9⟩ := hagree c
    rw [Cert.ReferenceIdeal.RefValue.ref_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
